-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S1x4x2048x2048 : Shape := ⟨4, ![1, 4, 2048, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x2048_S8192x2048 : S4x2048x2048.ShapeCasts S8192x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S1x4x2048x2048 : S8192x2048.ShapeCasts S1x4x2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1x1x2048 : Shape := ⟨3, ![1, 1, 2048]⟩
abbrev S1x4x2048x2048 : Shape := ⟨4, ![1, 4, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048x2048, .f32⟩
  | .hbm, ⟨4, _⟩ => ⟨S1x1x2048, .f32⟩
  | .hbm, ⟨5, _⟩ => ⟨S4x2048x2048, .f32⟩
  | .hbm, ⟨6, _⟩ => ⟨S4x2048x2048, .f32⟩
  | .hbm, ⟨7, _⟩ => ⟨S1x4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S4x2048x2048_S1x4x2048x2048_1_2_3 : S4x2048x2048.BroadcastsInDim S1x4x2048x2048 (![1, 2, 3] : Fin 3 → Fin S1x4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Affine.lean ====
/-
  The mathematics both programs compute, stated once over literal shapes.

  For X : [4, 2048, 2048], W : [2048, 2048] and a bias vector of length 2048 the result, of shape [1, 4, 2048, 2048], is
      Y[0, b, s, e] = (Σ_d X[b, s, d] · W[e, d]) + bias[e]
  on the extended reals. The kernel computes the same numbers on the rows flattened to [8192, 2048]
  (row r = b · 2048 + s) with the bias as a [1, 2048] row, and reshapes at the end; flattening and
  unflattening only rename indices (row-major position is kept), so no law of the extended reals beyond
  reading a sum term by term is used, and finiteness of the inputs is never needed.
-/
import Idealize.ShloMosaic.PureOps.Ideal
import Idealize.ShloMosaic.Lib.ValueIdx
import Idealize.ShloMosaic.Lib.Pipeline.Value

noncomputable section

namespace Cert.Affine

open Idealize.ShloMosaic Idealize.ShloMosaic.ValueIdx

abbrev SX : Shape := ⟨3, ![4, 2048, 2048]⟩
abbrev SW : Shape := ⟨2, ![2048, 2048]⟩
abbrev SB : Shape := ⟨1, ![2048]⟩
abbrev SRows : Shape := ⟨2, ![8192, 2048]⟩
abbrev SBrow : Shape := ⟨2, ![1, 2048]⟩
abbrev SY : Shape := ⟨4, ![1, 4, 2048, 2048]⟩

/-- The batched affine map: entry (0, b, s, e) is Σ_d X[b, s, d] · W[e, d] + bias[e]. -/
def affine (X : FVec Ideal SX .f32) (W : FVec Ideal SW .f32) (bias : FVec Ideal SB .f32) : FVec Ideal SY .f32 :=
  fun i => (∑ k : Fin 2048, X (ix3 (i 1) (i 2) k) * W (ix2 (i 3) k)) + bias (ix1 (i 3))

/-- The same map on flattened rows: entry (r, e) is Σ_d Xf[r, d] · W[e, d] + brow[0, e]. -/
def rows (Xf : FVec Ideal SRows .f32) (W : FVec Ideal SW .f32) (brow : FVec Ideal SBrow .f32) : FVec Ideal SRows .f32 :=
  fun i => (∑ k : Fin 2048, Xf (ix2 (i 0) k) * W (ix2 (i 1) k)) + brow (ix2 (0 : Fin 1) (i 1))

/-- Flatten the rows of X and the bias, apply the row form, unflatten: the batched affine map. Each reshape keeps
    the row-major position, so entry (0, b, s, e) of the result is entry (b · 2048 + s, e) of the row form, whose
    row is X[b, s, ·] and whose bias entry is bias[e]. -/
theorem unflatten_rows (X : FVec Ideal SX .f32) (W : FVec Ideal SW .f32) (bias : FVec Ideal SB .f32)
    (h1 : SX.ShapeCasts SRows) (h2 : SB.ShapeCasts SBrow) (h3 : SRows.ShapeCasts SY) :
    shapeCast SY (rows (shapeCast SRows X h1) W (shapeCast SBrow bias h2)) h3 = affine X W bias := by
  funext i
  have l0 : (i 0).val < 1 := (i 0).isLt
  have l1 : (i 1).val < 4 := (i 1).isLt
  have l2 : (i 2).val < 2048 := (i 2).isLt
  have l3 : (i 3).val < 2048 := (i 3).isLt
  have hr : (i 1).val * 2048 + (i 2).val < 8192 := by omega
  rw [shapeCast_apply _ h3 i (ix2 (⟨(i 1).val * 2048 + (i 2).val, hr⟩ : Fin 8192) (i 3)) (by
    rw [Shape.rowMajor_val_two, Shape.rowMajor_val_four]
    show ((i 1).val * 2048 + (i 2).val) * 2048 + (i 3).val
      = (((i 0).val * 4 + (i 1).val) * 2048 + (i 2).val) * 2048 + (i 3).val
    omega)]
  show (∑ k : Fin 2048, shapeCast SRows X h1 (ix2 (⟨(i 1).val * 2048 + (i 2).val, hr⟩ : Fin 8192) k) * W (ix2 (i 3) k))
      + shapeCast SBrow bias h2 (ix2 (0 : Fin 1) (i 3))
    = (∑ k : Fin 2048, X (ix3 (i 1) (i 2) k) * W (ix2 (i 3) k)) + bias (ix1 (i 3))
  rw [shapeCast_apply bias h2 (ix2 (0 : Fin 1) (i 3)) (ix1 (i 3)) (by
    rw [Shape.rowMajor_val_one, Shape.rowMajor_val_two]
    show (i 3).val = 0 * 2048 + (i 3).val
    omega)]
  refine congrArg (· + bias (ix1 (i 3))) (Finset.sum_congr rfl fun k _ => ?_)
  rw [shapeCast_apply X h1 (ix2 (⟨(i 1).val * 2048 + (i 2).val, hr⟩ : Fin 8192) k) (ix3 (i 1) (i 2) k) (by
    rw [Shape.rowMajor_val_three, Shape.rowMajor_val_two]
    show ((i 1).val * 2048 + (i 2).val) * 2048 + k.val = ((i 1).val * 2048 + (i 2).val) * 2048 + k.val
    rfl)]

end Cert.Affine

end
-- ==== Proof.Reference.lean ====
/-
  The reference's result is the batched affine map.

  The reference is one `dot_general` contracting X's last axis with W's last axis, the bias broadcast along the
  two leading axes, a sum, and a new leading unit axis. Read at an index (0, b, s, e), stage by stage:
  the unit axis reads entry (b, s, e) of the sum; the product there is Σ_d X[b, s, d] · W[e, d]; the broadcast
  bias there is bias[e]. That is `Cert.Affine.affine` index by index.
-/
import proofs.«102453_g13804024889374_cont_week2b_70_2_alg».proof.Proof.Gen.ReferenceIdeal.Read
import proofs.«102453_g13804024889374_cont_week2b_70_2_alg».proof.Proof.Affine

noncomputable section

namespace Cert.ReferenceIdeal.RefValue

open Cert.ReferenceIdeal Cert.ReferenceIdeal.Read Idealize.ShloMosaic Idealize.ShloMosaic.ValueIdx

/-- The last stage of the reference, as a function of the three arguments, is the batched affine map. -/
theorem reference_is_affine (X : (⟨S4x2048x2048, .f32⟩ : BufTy).Contents (Elt Ideal))
    (W : (⟨S2048x2048, .f32⟩ : BufTy).Contents (Elt Ideal)) (bias : (⟨S2048, .f32⟩ : BufTy).Contents (Elt Ideal)) :
    val_main_v4 (F := Ideal) X W bias = Cert.Affine.affine X W bias := by
  funext i
  -- the left factor's index: (b, s, d)
  have eX : ∀ k : Fin 2048, lidx_main_v0 (idx_main_v4 i) k = ix3 (i 1) (i 2) k := fun k =>
    funext fun a => by match a with | ⟨0, _⟩ => rfl | ⟨1, _⟩ => rfl | ⟨2, _⟩ => rfl
  -- the right factor's index: (e, d)
  have eW : ∀ k : Fin 2048, ridx_main_v0 (idx_main_v4 i) k = ix2 (i 3) k := fun k =>
    funext fun a => by match a with | ⟨0, _⟩ => rfl | ⟨1, _⟩ => rfl
  -- the bias's index through both broadcasts: e
  have eB : idx_main_v1 (idx_main_v2 (idx_main_v4 i)) = ix1 (i 3) :=
    funext fun a => by match a with | ⟨0, _⟩ => rfl
  rw [val_main_v4_apply, val_main_v3_apply, val_main_v0_apply, val_main_v2_apply, val_main_v1_apply]
  simp only [eX, eW, eB]
  rfl

end Cert.ReferenceIdeal.RefValue

end
-- ==== Proof.Payload.lean ====
/-
  What the kernel body stores, entry by entry.

  The body loads a [512, 2048] block of rows x, the whole [2048, 2048] weight w and the [1, 2048] bias row, and stores
      matmul(bf16 x, bf16 w, 0) + broadcast(bias row)
  where the product contracts the last axis of both operands. On the extended reals the two changes of float
  format are the identity and the product into the zero accumulator is the plain sum, so entry (p, q) of the
  stored block is  Σ_d x[p, d] · w[q, d] + bias[0, q].
-/
import proofs.«102453_g13804024889374_cont_week2b_70_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-! ## The product's operand indices, axis by axis: at output entry (p, q) and contraction index d the left
    operand is read at (p, d) and the right one at (q, d). -/

theorem lhs_axis0 (i : S512x2048.Idx) (d : dot_S512x2048_S2048x2048_S512x2048_1_1_0_0_n_n.contr.Idx) :
    (dot_S512x2048_S2048x2048_S512x2048_1_1_0_0_n_n.lhsIdx i d 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_axis1 (i : S512x2048.Idx) (d : dot_S512x2048_S2048x2048_S512x2048_1_1_0_0_n_n.contr.Idx) :
    (dot_S512x2048_S2048x2048_S512x2048_1_1_0_0_n_n.lhsIdx i d 1).val = (d ⟨0, by decide⟩).val :=
  dot_S512x2048_S2048x2048_S512x2048_1_1_0_0_n_n.lhsIdx_val_of_single rfl i d
theorem rhs_axis0 (i : S512x2048.Idx) (d : dot_S512x2048_S2048x2048_S512x2048_1_1_0_0_n_n.contr.Idx) :
    (dot_S512x2048_S2048x2048_S512x2048_1_1_0_0_n_n.rhsIdx i d 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_axis1 (i : S512x2048.Idx) (d : dot_S512x2048_S2048x2048_S512x2048_1_1_0_0_n_n.contr.Idx) :
    (dot_S512x2048_S2048x2048_S512x2048_1_1_0_0_n_n.rhsIdx i d 1).val = (d ⟨0, by decide⟩).val :=
  dot_S512x2048_S2048x2048_S512x2048_1_1_0_0_n_n.rhsIdx_val_of_single rfl i d

/-- The product into the zero accumulator, at entry (p, q): the sum over d of x[p, d] · w[q, d]. -/
theorem product_entry (x : FVec Ideal S512x2048 .bf16) (w : FVec Ideal S2048x2048 .bf16) (p : Fin 512) (q : Fin 2048) :
    matmul (F := Ideal) dot_S512x2048_S2048x2048_S512x2048_1_1_0_0_n_n none x w (constant (F := Ideal) S512x2048 .f32 0x00000000#32) (ix2 p q)
      = ∑ k : Fin 2048, x (ix2 p k) * w (ix2 q k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-- The bias row broadcast down the 512 rows, at entry (p, q): bias[0, q]. -/
theorem bias_entry (v : FVec Ideal S1x2048 .f32) (h : S1x2048.Broadcasts S512x2048) (p : Fin 512) (q : Fin 2048) :
    broadcastTo S512x2048 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- The stored block at entry (p, q): Σ_d x[p, d] · w[q, d] + bias[0, q]. -/
theorem stored_entry (x : Vec Ideal S512x2048 .f32) (w : Vec Ideal S2048x2048 .f32) (brow : Vec Ideal S1x2048 .f32)
    (p : Fin 512) (q : Fin 2048) :
    k0_pay1 (F := Ideal) x w brow (ix2 p q) = (∑ k : Fin 2048, x (ix2 p k) * w (ix2 q k)) + brow (ix2 (0 : Fin 1) q) := by
  unfold k0_pay1
  refine (addf_apply _ _ (ix2 p q)).trans ?_
  refine congrArg₂ (· + ·) ?_ ?_
  · refine (product_entry _ _ p q).trans (Finset.sum_congr rfl fun k _ => ?_)
    rw [shapeCast_self]
    rfl
  · refine (bias_entry _ _ p q).trans ?_
    rw [shapeCast_self]

end Cert.KernelIdeal.Body

end
-- ==== Proof.Rows.lean ====
/-
  The kernel's output array, and the program's result, as functions of the arguments.

  The grid has 16 points. At point t the rows window and the output window are both at block (t, 0) — rows
  512·t … 512·t + 511, all 2048 columns — while the weight and the bias row are at block (0, 0), i.e. whole.
  So what point t writes back is rows 512·t … 512·t + 511 of ONE function of the arrays the region finds:
  the row form `Cert.Affine.rows` of the flattened X, of W and of the bias row. The 16 blocks tile the
  [8192, 2048] output (row r is in block r / 512), hence the output array ends holding that function.
  Before the region the program flattens X and turns the bias into a row; after it, it reshapes the output to
  [1, 4, 2048, 2048]: by `Cert.Affine.unflatten_rows` the result is the batched affine map of the arguments.
-/
import proofs.«102453_g13804024889374_cont_week2b_70_2_alg».proof.Proof.Gen.KernelIdeal.Frame
import proofs.«102453_g13804024889374_cont_week2b_70_2_alg».proof.Proof.Payload
import proofs.«102453_g13804024889374_cont_week2b_70_2_alg».proof.Proof.Affine
import Idealize.ShloMosaic.Lib.Pipeline.Value
import Idealize.ShloMosaic.Lib.StableHlo.Run
import Idealize.ShloMosaic.Lib.Tactic

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region finds, and the blocks the body loads, at their literal types -/

/-- The flattened X, [8192, 2048]. -/
abbrev xarr (c : Dev nD) : Vec Ideal S8192x2048 .f32 := V m c main_v0
/-- W, [2048, 2048]. -/
abbrev warr (c : Dev nD) : Vec Ideal S2048x2048 .f32 := V m c main_arg1
/-- The bias as a row, [1, 2048]. -/
abbrev barr (c : Dev nD) : Vec Ideal S1x2048 .f32 := V m c main_v1
/-- The 512 rows of the flattened X loaded at point t. -/
abbrev xblk (c : Dev nD) (t : Fin cfg0.N) : Vec Ideal S512x2048 .f32 := iblk m c 0 t
/-- The weight block loaded at point t. -/
abbrev wblk (c : Dev nD) (t : Fin cfg0.N) : Vec Ideal S2048x2048 .f32 := iblk m c 1 t
/-- The bias block loaded at point t. -/
abbrev bblk (c : Dev nD) (t : Fin cfg0.N) : Vec Ideal S1x2048 .f32 := iblk m c 2 t

/-- The four index maps over the grid: rows and output at block (t, 0), weight and bias at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := lt_of_lt_of_eq t.isLt N_0

/-- Entry (p, k) of the rows block at point t is entry (512·t + p, k) of the flattened X. -/
theorem xblk_entry (c : Dev nD) (t : Fin cfg0.N) (p : Fin 512) (k : Fin 2048) (hr : 512 * t.val + p.val < 8192) :
    xblk m c t (ix2 p k) = xarr m c (ix2 (⟨512 * t.val + p.val, hr⟩ : Fin 8192) k) := by
  obtain ⟨e0, e1, -⟩ := block_indices t
  show V m c main_v0 (((cfg0.win 0).blk t).view.emb (ix2 p k)) = V m c main_v0 (ix2 (⟨512 * t.val + p.val, hr⟩ : Fin 8192) k)
  refine congrArg (V m c main_v0) (funext fun a => Fin.ext ?_)
  match a with
  | ⟨0, _⟩ => show win0_0.index t (0 : Fin 2) * 512 + 1 * p.val = 512 * t.val + p.val; omega
  | ⟨1, _⟩ => show win0_0.index t (1 : Fin 2) * 2048 + 1 * k.val = k.val; omega

/-- The weight block is W. -/
theorem wblk_entry (c : Dev nD) (t : Fin cfg0.N) (q k : Fin 2048) :
    wblk m c t (ix2 q k) = warr m c (ix2 q k) := by
  obtain ⟨-, -, e2, e3, -⟩ := block_indices t
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 2048 + 1 * q.val = q.val; omega
  | ⟨1, _⟩ => show win0_1.index t (1 : Fin 2) * 2048 + 1 * k.val = k.val; omega

/-- The bias block is the bias row. -/
theorem bblk_entry (c : Dev nD) (t : Fin cfg0.N) (q : Fin 2048) :
    bblk m c t (ix2 (0 : Fin 1) q) = barr m c (ix2 (0 : Fin 1) q) := by
  obtain ⟨-, -, -, -, e4, e5, -⟩ := block_indices t
  show V m c main_v1 (((cfg0.win 2).blk t).view.emb (ix2 (0 : Fin 1) q)) = V m c main_v1 (ix2 (0 : Fin 1) q)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 2048 + 1 * q.val = q.val; omega

/-! ## What a point writes back, and the output array after the run -/

/-- What point t writes back is block t of the row form of the arrays the region finds. -/
theorem flushed_eq (c : Dev nD) (t : Fin cfg0.N) :
    (dats m 0 c).flushed 3 t
      = ((cfg0.win 3).blk t).view.read (Elt Ideal) (Cert.Affine.rows (xarr m c) (warr m c) (barr m c)) := by
  show (cfg0.win 3).cut (grid0.coords t) ((dats m 0 c).after 3 t) = _
  rw [after0_3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨-, -, -, -, -, -, e6, e7⟩ := block_indices t
  have ht := point_lt t
  funext j
  obtain ⟨p, q, rfl⟩ : ∃ (p : Fin 512) (q : Fin 2048), j = ix2 p q := ⟨j 0, j 1, eq_ix2 j⟩
  have hr : 512 * t.val + p.val < 8192 := by have := p.isLt; omega
  have hemb : ((cfg0.win 3).blk t).view.emb (ix2 p q) = ix2 (⟨512 * t.val + p.val, hr⟩ : Fin 8192) q :=
    funext fun a => Fin.ext (by
      match a with
      | ⟨0, _⟩ => show win0_3.index t (0 : Fin 2) * 512 + 1 * p.val = 512 * t.val + p.val; omega
      | ⟨1, _⟩ => show win0_3.index t (1 : Fin 2) * 2048 + 1 * q.val = q.val; omega)
  show Cert.KernelIdeal.Gen.k0_pay1 (F := Ideal) (xblk m c t) (wblk m c t) (bblk m c t) (ix2 p q)
    = Cert.Affine.rows (xarr m c) (warr m c) (barr m c) (((cfg0.win 3).blk t).view.emb (ix2 p q))
  rw [hemb]
  refine (Cert.KernelIdeal.Body.stored_entry (xblk m c t) (wblk m c t) (bblk m c t) p q).trans ?_
  show (∑ k : Fin 2048, xblk m c t (ix2 p k) * wblk m c t (ix2 q k)) + bblk m c t (ix2 (0 : Fin 1) q)
    = (∑ k : Fin 2048, xarr m c (ix2 (⟨512 * t.val + p.val, hr⟩ : Fin 8192) k) * warr m c (ix2 q k)) + barr m c (ix2 (0 : Fin 1) q)
  rw [bblk_entry m c t q]
  refine congrArg (· + barr m c (ix2 (0 : Fin 1) q)) (Finset.sum_congr rfl fun k _ => ?_)
  rw [xblk_entry m c t p k hr, wblk_entry m c t q k]

/-- An index of the output array is in point t's block iff each coordinate is in the block's range on its axis. -/
theorem mem_block (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

/-- Row r of the output is in the block of point r / 512. -/
theorem covered (i : S8192x2048.Idx) :
    ∃ t : Fin cfg0.N, (cfg0.win 3).flush t = true ∧ i ∈ ((cfg0.win 3).blk t).view.set := by
  have h0 : (i 0).val < 8192 := (i 0).isLt
  have h1 : (i 1).val < 2048 := (i 1).isLt
  have hN : (i 0).val / 512 < cfg0.N := lt_of_lt_of_eq (by omega : (i 0).val / 512 < 16) N_0.symm
  refine ⟨⟨(i 0).val / 512, hN⟩, flush0_3 _, ?_⟩
  obtain ⟨-, -, -, -, -, -, e6, e7⟩ := block_indices ⟨(i 0).val / 512, hN⟩
  have e6' : win0_3.index ⟨(i 0).val / 512, hN⟩ (0 : Fin 2) = (i 0).val / 512 := e6
  rw [mem_block]
  intro a
  match a with
  | ⟨0, _⟩ => show win0_3.index ⟨(i 0).val / 512, hN⟩ (0 : Fin 2) * 512 ≤ (i 0).val ∧ (i 0).val < win0_3.index ⟨(i 0).val / 512, hN⟩ (0 : Fin 2) * 512 + 512; omega
  | ⟨1, _⟩ => show win0_3.index ⟨(i 0).val / 512, hN⟩ (1 : Fin 2) * 2048 ≤ (i 1).val ∧ (i 1).val < win0_3.index ⟨(i 0).val / 512, hN⟩ (1 : Fin 2) * 2048 + 2048; omega

/-- The output array after the run: the row form of the arrays the region finds. -/
theorem output_array (c : Dev nD) :
    (dats m 0 c).arrAt 3 cfg0.N = Cert.Affine.rows (xarr m c) (warr m c) (barr m c) :=
  (dats m 0 c).arrAt_eq_of_cover 3 (Cert.Affine.rows (xarr m c) (warr m c) (barr m c)) (fun t _ => flushed_eq m c t) covered

end Cert.KernelIdeal.Rows

end
-- ==== Proof.Result.lean ====
/-
  The idealized kernel program's run, read: its result is the batched affine map of its arguments.

  Before the region the program flattens X to [8192, 2048] and turns the bias into a [1, 2048] row; W is untouched.
  The region leaves the row form of those three in its output array (`Rows.output_array`). After the region the
  program reshapes that array to [1, 4, 2048, 2048]. Flatten, row form, unflatten is the batched affine map
  (`Cert.Affine.unflatten_rows`).
-/
import proofs.«102453_g13804024889374_cont_week2b_70_2_alg».proof.Proof.Rows

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region finds X flattened. -/
theorem xarr_eq (c : Dev nD) :
    Rows.xarr m c = shapeCast S8192x2048 (m ((c : Thread nD τ).loc main_arg0)) shapeCasts_S4x2048x2048_S8192x2048 := by
  show StableHlo.after hostOps0 (fun b => m (c, b)) (Proc.devRef .tc main_v0) = _
  after_results
  rfl

/-- The region finds the bias as a row. -/
theorem barr_eq (c : Dev nD) :
    Rows.barr m c = shapeCast S1x2048 (m ((c : Thread nD τ).loc main_arg2)) shapeCasts_S2048_S1x2048 := by
  show StableHlo.after hostOps0 (fun b => m (c, b)) (Proc.devRef .tc main_v1) = _
  after_results
  rfl

/-- The region finds W as launched. -/
theorem warr_eq (c : Dev nD) : Rows.warr m c = m ((c : Thread nD τ).loc main_arg1) := V_main_arg1 m c

/-- The program's result: the output array unflattened is the batched affine map of the arguments. -/
theorem result_eq (c : Dev nD) :
    Pipeline.afterTail₀ cfgs (dats m) 0 (V0 m) [hostOps1] c main_v3
      = Cert.Affine.affine (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hA : Pipeline.withArrays spec0 c (V0 m c) (fun w => (dats m 0 c).arrAt w cfg0.N) (Proc.devRef .tc (Pipeline.arrRef spec0 3))
      = Cert.Affine.rows (Rows.xarr m c) (Rows.warr m c) (Rows.barr m c) :=
    (Pipeline.withArrays_arr spec0 launch0.win.arr_inj c _ _ 3).trans (Rows.output_array m c)
  show shapeCast S1x4x2048x2048 (Pipeline.withArrays spec0 c (V0 m c) (fun w => (dats m 0 c).arrAt w cfg0.N)
      (Proc.devRef .tc (Pipeline.arrRef spec0 3))) shapeCasts_S8192x2048_S1x4x2048x2048 = _
  rw [hA, xarr_eq, warr_eq, barr_eq]
  exact Cert.Affine.unflatten_rows _ _ _ _ _ _

/-- Every weakly fair execution of the idealized kernel program terminates with its result at the batched affine
    map of the arguments, the arguments unchanged. -/
theorem run : θ_run defs (onTc (τ := τ) (main (F := Ideal))) ⟨m, fun _ => 0, ρ⟩ fun r => ∀ c : Dev nD,
      r.2.mem ((c.tc : Thread nD τ).loc main_v3)
        = Cert.Affine.affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Result

end
-- ==== Proof.lean ====
/-
  A dense linear layer, Y = X · Wᵀ + bias, computed by a row-blocked matrix product against jnp's einsum.

  Both idealized programs compute, on the extended reals,
      Y[0, b, s, e] = (Σ_d X[b, s, d] · W[e, d]) + bias[e]          (`Cert.Affine.affine`).
  The kernel flattens the rows of X, walks sixteen blocks of 512 rows with W and the bias row resident, stores per
  block the product (its bf16 casts are the identity on the extended reals, its zero accumulator adds nothing) plus
  the broadcast bias row, and reshapes at the end (`Cert.KernelIdeal.Result.run`). The reference contracts X's and
  W's last axes in one product, adds the broadcast bias and prepends a unit axis
  (`Cert.ReferenceIdeal.RefValue.reference_is_affine`). The two sums run over the same index d with the same
  terms, so no law of the extended reals is used beyond reading each side entry by entry, and the finiteness of
  the inputs is never opened. The idealized kernel is the kernel's own operations read on the extended reals, so
  the preservation conjunct has nothing to state and is trivially true.
-/
import proofs.«102453_g13804024889374_cont_week2b_70_2_alg».proof.Defs
import proofs.«102453_g13804024889374_cont_week2b_70_2_alg».proof.Proof.Gen.Kernel
import proofs.«102453_g13804024889374_cont_week2b_70_2_alg».proof.Proof.Gen.Kernel.Skeleton
import proofs.«102453_g13804024889374_cont_week2b_70_2_alg».proof.Proof.Gen.Kernel.Launch
import proofs.«102453_g13804024889374_cont_week2b_70_2_alg».proof.Proof.Gen.Kernel.Points
import proofs.«102453_g13804024889374_cont_week2b_70_2_alg».proof.Proof.Gen.Kernel.Frame
import proofs.«102453_g13804024889374_cont_week2b_70_2_alg».proof.Proof.Gen.KernelIdeal
import proofs.«102453_g13804024889374_cont_week2b_70_2_alg».proof.Proof.Gen.KernelIdeal.Skeleton
import proofs.«102453_g13804024889374_cont_week2b_70_2_alg».proof.Proof.Gen.KernelIdeal.Launch
import proofs.«102453_g13804024889374_cont_week2b_70_2_alg».proof.Proof.Gen.KernelIdeal.Points
import proofs.«102453_g13804024889374_cont_week2b_70_2_alg».proof.Proof.Gen.KernelIdeal.Frame
import proofs.«102453_g13804024889374_cont_week2b_70_2_alg».proof.Proof.Gen.ReferenceIdeal
import proofs.«102453_g13804024889374_cont_week2b_70_2_alg».proof.Proof.Gen.ReferenceIdeal.Run
import proofs.«102453_g13804024889374_cont_week2b_70_2_alg».proof.Proof.Gen.ReferenceIdeal.Read
import proofs.«102453_g13804024889374_cont_week2b_70_2_alg».proof.Proof.Gen.Pre_finite_inputs
import proofs.«102453_g13804024889374_cont_week2b_70_2_alg».proof.Proof.Affine
import proofs.«102453_g13804024889374_cont_week2b_70_2_alg».proof.Proof.Reference
import proofs.«102453_g13804024889374_cont_week2b_70_2_alg».proof.Proof.Result
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on X, W and the bias, both idealized programs end with the batched affine map of those
    arguments as their result. -/
theorem algebraic : Cert.algebraic_KernelIdeal_ReferenceIdeal := by
  intro m ρ m' ρ' _ hagree
  refine ⟨fun c => Cert.Affine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_is_affine,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
